-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x128 : Shape := ⟨2, ![1024, 128]⟩
abbrev S128 : Shape := ⟨1, ![128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x1024 .f32) (main_arg1 : FVec F S1024x128 .f32) (main_arg2 : FVec F S128 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x1024 : Shape := ⟨2, ![32768, 1024]⟩
abbrev S1024x128 : Shape := ⟨2, ![1024, 128]⟩
abbrev S128 : Shape := ⟨1, ![128]⟩
abbrev S1x128 : Shape := ⟨2, ![1, 128]⟩
abbrev S32768x128 : Shape := ⟨2, ![32768, 128]⟩
abbrev S4096x1024 : Shape := ⟨2, ![4096, 1024]⟩
abbrev S4096x128 : Shape := ⟨2, ![4096, 128]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x128, .f32⟩
  | .hbm, ⟨2, _⟩ => ⟨S128, .f32⟩
  | .hbm, ⟨3, _⟩ => ⟨S1024x128, .bf16⟩
  | .hbm, ⟨4, _⟩ => ⟨S1x128, .f32⟩
  | .hbm, ⟨5, _⟩ => ⟨S32768x128, .f32⟩
  | .local _ .vmem, ⟨0, _⟩ => ⟨S4096x1024, .f32⟩
  | .local _ .vmem, ⟨1, _⟩ => ⟨S4096x1024, .f32⟩
  | .local _ .vmem, ⟨2, _⟩ => ⟨S1024x128, .bf16⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v4 : BitVec 32 := Scalar.muli c0_i32 c1024_i32
  v4
def k0_off1 (c0_i32 : BitVec 32) : Fin 2 → Nat :=
  let c1024_i32 : BitVec 32 := 1024#32
  let v4 : BitVec 32 := Scalar.muli c0_i32 c1024_i32
  let v5 : BitVec 32 := v4
  let v6 : Index := Scalar.indexCast v5
  let c0_3 : Index := 0#32
  ![v6.toNat, 0]
def k0_off2 (c0_i32 : BitVec 32) : Fin 2 → Nat :=
  let c1024_i32 : BitVec 32 := 1024#32
  let v4 : BitVec 32 := Scalar.muli c0_i32 c1024_i32
  let v5 : BitVec 32 := v4
  let v13 : Index := Scalar.indexCast v5
  let c0_4 : Index := 0#32
  ![v13.toNat, 0]
def k0_mult2 : BitVec 32 :=
  let c1_i32 : BitVec 32 := 1#32
  let c1024_i32_5 : BitVec 32 := 1024#32
  let v15 : BitVec 32 := Scalar.muli c1_i32 c1024_i32_5
  v15
def k0_mult3 : BitVec 32 :=
  let c2_i32 : BitVec 32 := 2#32
  let c1024_i32_9 : BitVec 32 := 1024#32
  let v26 : BitVec 32 := Scalar.muli c2_i32 c1024_i32_9
  v26
def k0_mult4 : BitVec 32 :=
  let c3_i32 : BitVec 32 := 3#32
  let c1024_i32_13 : BitVec 32 := 1024#32
  let v37 : BitVec 32 := Scalar.muli c3_i32 c1024_i32_13
  v37
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1024x1024 : 0 < S1024x1024.numel
  broadcasts_S1x128_S1024x128 : S1x128.Broadcasts S1024x128
  dot_S1024x1024_S1024x128_S1024x128_1_0_0_1_n_n_wf : DotDims.WF S1024x1024 S1024x128 S1024x128 [1] [0] [0] [1] [] []
  hrank0 : 0 < grid0.rank
  k0_mult1_dvd : 1024 ∣ k0_mult1.toNat
  k0_off1_inb : ∀ (r : Fin 4), ∀ a, (k0_off1 (BitVec.ofNat 32 r.val)) a + S1024x1024.size a ≤ S4096x1024.size a
  k0_off2_inb : ∀ (r : Fin 4), ∀ a, (k0_off2 (BitVec.ofNat 32 r.val)) a + S1024x128.size a ≤ S4096x128.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S32768x1024.size a
  hwx0_0 : ∀ i : grid0.Coords, EltTy.bits .f32 = 32 ∨ (Rect.block (s := S32768x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S32768x128.size a
  hwx0_3 : ∀ i : grid0.Coords, EltTy.bits .f32 = 32 ∨ (Rect.block (s := S32768x128) S4096x128.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x128 : Shape := ⟨2, ![1024, 128]⟩
abbrev S128 : Shape := ⟨1, ![128]⟩
abbrev S32768x128 : Shape := ⟨2, ![32768, 128]⟩
abbrev S1x128 : Shape := ⟨2, ![1, 128]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x128, .f32⟩
  | .hbm, ⟨2, _⟩ => ⟨S128, .f32⟩
  | .hbm, ⟨3, _⟩ => ⟨S32768x128, .f32⟩
  | .hbm, ⟨4, _⟩ => ⟨S1x128, .f32⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S32768x128, .f32⟩
  | .hbm, ⟨9, _⟩ => ⟨S_, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S32768x128, .f32⟩
  | .hbm, ⟨14, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x1024_S1024x128_S32768x128_1_0_0_1_n_n_wf : DotDims.WF S32768x1024 S1024x128 S32768x128 [1] [0] [0] [1] [] []

variable [Facts₀]

def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf

class Facts : Prop extends Facts₀ where

variable [Facts]
-- ==== Proof.Spec.lean ====
/-
  The multilabel head over the extended reals. For a batch x of 32768 rows of 1024 features, a weight
  matrix W of 1024 rows and 128 columns and a bias b of 128 entries, entry (r, c) of the result is the
  logistic function of the inner product of row r of x with column c of W, plus b at c:

      head x W b (r, c) = logistic (sum over k of x (r, k) * W (k, c)  +  b c).

  Both programs compute this function. The host program spells the logistic function out as
  1 / (1 + exp (-z)); on the extended reals that expression is the logistic function by definition,
  at the infinities too (`logistic_expanded`).
-/
import Idealize.ShloMosaic.PureOps.Ideal
import Idealize.ShloMosaic.PureOps.Ideal.Laws
import Idealize.ShloMosaic.Lib.ValueIdx

noncomputable section

open scoped BigOperators

namespace Cert.Head

open Idealize.ShloMosaic Idealize.ShloMosaic.ValueIdx

/-- Entry (r, c): the logistic function of row r of `x` against column c of `W`, plus the bias of column c. -/
def head (x : FVec Ideal ⟨2, ![32768, 1024]⟩ .f32) (W : FVec Ideal ⟨2, ![1024, 128]⟩ .f32)
    (b : FVec Ideal ⟨1, ![128]⟩ .f32) : FVec Ideal ⟨2, ![32768, 128]⟩ .f32 :=
  fun i => Ideal.logistic ((∑ k : Fin 1024, x (ix2 (i 0) k) * W (ix2 k (i 1))) + b (ix1 (i 1)))

/-- The single-precision word of 1.0 denotes the number one. -/
theorem one_f32 : Ideal.ofBits .f32 0x3F800000#32 = 1 := by
  simp [Ideal.ofBits, Ideal.ieee, -EReal.coe_mul]; norm_num

/-- One over one plus the exponential of the negated argument, with both ones written as the word of 1.0,
    is the logistic function: its definition on the extended reals. -/
theorem logistic_expanded (z : EReal) :
    Ideal.div (Ideal.ofBits .f32 0x3F800000#32) (Ideal.ofBits .f32 0x3F800000#32 + Ideal.exp (-z)) = Ideal.logistic z := by
  rw [one_f32]; rfl

end Cert.Head

end
-- ==== Proof.RefValue.lean ====
/-
  The reference program computes the multilabel head. Its run ends with the result at one composed term
  of the arguments: the product of x with W, the bias broadcast to a row and then over the batch, their
  sum, and then one over one plus the exponential of the negated sum. Read at an entry (r, c), stage by
  stage: the product is the sum over k of x (r, k) * W (k, c); the two broadcasts read the bias at c; and
  the last four stages are the logistic function spelled out. So the term is `head`.
-/
import proofs.«425459_j56633438765711_3_alg».proof.Proof.Gen.ReferenceIdeal.Read
import proofs.«425459_j56633438765711_3_alg».proof.Proof.Spec

noncomputable section

open scoped BigOperators

namespace Cert.ReferenceIdeal.RefValue

open Cert.ReferenceIdeal Cert.ReferenceIdeal.Read Cert.Head Idealize.ShloMosaic Idealize.ShloMosaic.ValueIdx

/-- The product's left operand index at entry `i` and contraction index `k` is (row of `i`, `k`). -/
theorem lidx_eq (i : S32768x128.Idx) (k : Fin 1024) : lidx_main_v0 i k = ix2 (i 0) k :=
  funext fun a => Fin.ext (by match a with | ⟨0, _⟩ => rfl | ⟨1, _⟩ => rfl)
/-- Its right operand index is (`k`, column of `i`). -/
theorem ridx_eq (i : S32768x128.Idx) (k : Fin 1024) : ridx_main_v0 i k = ix2 k (i 1) :=
  funext fun a => Fin.ext (by match a with | ⟨0, _⟩ => rfl | ⟨1, _⟩ => rfl)
/-- The two broadcasts of the bias read it at the entry's column. -/
theorem bias_idx_eq (i : S32768x128.Idx) : idx_main_v1 (idx_main_v2 i) = ix1 (i 1) :=
  funext fun a => Fin.ext (by match a with | ⟨0, _⟩ => rfl)

/-- The reference's result term is the multilabel head of its arguments. -/
theorem result_eq (x : FVec Ideal S32768x1024 .f32) (W : FVec Ideal S1024x128 .f32) (b : FVec Ideal S128 .f32) :
    val_main_v9 (F := Ideal) x W b = head x W b := by
  funext i
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  simp only [lidx_eq, ridx_eq, bias_idx_eq, Ideal.hostDivf_def, Ideal.addf_def, Ideal.hostUnary_exp_def,
    Ideal.hostNegf_def, Ideal.negf_def, Ideal.ofBits_def]
  exact logistic_expanded _

end Cert.ReferenceIdeal.RefValue

end
-- ==== Proof.KernelChunk.lean ====
/-
  One chunk of the kernel's body, read at an entry. The body cuts its block of 4096 rows of x into four
  chunks of 1024 rows; for each chunk it multiplies the chunk (1024 by 1024) with the weight block
  (1024 by 128) into a zero accumulator, adds the bias row broadcast over the 1024 rows and applies the
  logistic function. Over the extended reals the change of format of the chunk is the identity, the
  product into zero is the plain sum over the contraction index, and the broadcast reads the bias row's
  one row, so entry (p, q) of a chunk's result is

      logistic (sum over k of chunk (p, k) * w (k, q)  +  bias (0, q)).

  The four stored values of the body are this one term at the four chunks.
-/
import proofs.«425459_j56633438765711_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Chunk

open Cert.KernelIdeal Cert.KernelIdeal.Gen Idealize.ShloMosaic Idealize.ShloMosaic.ValueIdx

/-! ## The product's operand indices -/

/-- The left operand's row is the result's row. -/
theorem lhs_row (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- The left operand's column is the contraction index. -/
theorem lhs_col (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand's row is the contraction index. -/
theorem rhs_row (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The right operand's column is the result's column. -/
theorem rhs_col (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a chunk with the weights into the zero accumulator, at entry (p, q): the sum over the
    contraction index of the chunk's row p against the weights' column q. -/
theorem product_apply (xc : FVec Ideal S1024x1024 .bf16) (w : FVec Ideal S1024x128 .bf16) (p : Fin 1024) (q : Fin 128) :
    matmul dot_S1024x1024_S1024x128_S1024x128_1_0_0_1_n_n none xc w (constant S1024x128 .f32 0x00000000#32) (ix2 p q)
      = ∑ k : Fin 1024, xc (ix2 p k) * w (ix2 k q) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhs_row _ _).trans hk
    | ⟨1, _⟩ => exact rhs_col _ _)
  rw [el, er]

/-! ## One chunk's stored value -/

/-- What the body stores for one chunk: the logistic function of the chunk's product with the weights plus
    the broadcast bias row. -/
def chunkTerm {F : FTy → Type} [FloatOps F] (w : FVec F S1024x128 .bf16) (bias : FVec F S1x128 .f32) (xc : Vec F S1024x1024 .f32) :
    FVec F S1024x128 .f32 :=
  logistic (addf (matmul dot_S1024x1024_S1024x128_S1024x128_1_0_0_1_n_n none (truncf .bf16 xc bitsLt_bf16_f32) w (constant S1024x128 .f32 0x00000000#32))
    (broadcastTo S1024x128 bias broadcasts_S1x128_S1024x128))

/-- A chunk's stored value at entry (p, q). -/
theorem chunkTerm_apply (w : FVec Ideal S1024x128 .bf16) (bias : FVec Ideal S1x128 .f32) (xc : Vec Ideal S1024x1024 .f32)
    (p : Fin 1024) (q : Fin 128) :
    chunkTerm (F := Ideal) w bias xc (ix2 p q)
      = Ideal.logistic ((∑ k : Fin 1024, xc (ix2 p k) * w (ix2 k q)) + bias (ix2 (0 : Fin 1) q)) := by
  show Ideal.logistic (matmul dot_S1024x1024_S1024x128_S1024x128_1_0_0_1_n_n none (truncf .bf16 xc bitsLt_bf16_f32) w (constant S1024x128 .f32 0x00000000#32) (ix2 p q)
    + broadcastTo S1024x128 bias broadcasts_S1x128_S1024x128 (ix2 p q)) = _
  rw [product_apply, broadcastTo_1b_ab_apply]
  rfl

variable {F : FTy → Type} [FloatOps F]

/-- The weight block is used as loaded: its cast to its own shape is the identity. -/
theorem weights_eq (v0 : Vec F S1024x128 .bf16) : k0_pay2 v0 = v0 := shapeCast_self _ _
/-- The bias row is used as loaded. -/
theorem bias_eq (v2 : Vec F S1x128 .f32) : k0_pay3 v2 = v2 := shapeCast_self _ _

/-- The four stored values are the chunk's term at the four chunks. -/
theorem stored0 (v0 : Vec F S1024x128 .bf16) (v2 : Vec F S1x128 .f32) (v7 : Vec F S1024x1024 .f32) :
    k0_pay4 v0 v2 v7 = chunkTerm v0 v2 v7 := by
  show chunkTerm (k0_pay2 v0) (k0_pay3 v2) v7 = _
  rw [weights_eq, bias_eq]
theorem stored1 (v0 : Vec F S1024x128 .bf16) (v2 : Vec F S1x128 .f32) (v18 : Vec F S1024x1024 .f32) :
    k0_pay5 v0 v2 v18 = chunkTerm v0 v2 v18 := by
  show chunkTerm (k0_pay2 v0) (k0_pay3 v2) v18 = _
  rw [weights_eq, bias_eq]
theorem stored2 (v0 : Vec F S1024x128 .bf16) (v2 : Vec F S1x128 .f32) (v29 : Vec F S1024x1024 .f32) :
    k0_pay6 v0 v2 v29 = chunkTerm v0 v2 v29 := by
  show chunkTerm (k0_pay2 v0) (k0_pay3 v2) v29 = _
  rw [weights_eq, bias_eq]
theorem stored3 (v1 : FVec F S1024x128 .bf16) (v3 : FVec F S1x128 .f32) (v40 : Vec F S1024x1024 .f32) :
    k0_pay1 v1 v3 v40 = chunkTerm v1 v3 v40 := rfl

end Cert.KernelIdeal.Chunk

end
-- ==== Proof.KernelBlock.lean ====
/-
  What one grid point leaves in the output's staging buffer. The body writes the 4096 by 128 block in four
  pieces of 1024 rows, piece j holding the chunk term of rows 1024 j to 1024 j + 1023 of the point's block
  of x, of the weight block and of the bias row. All four pieces are restrictions of ONE function of the
  block index: entry (r, q) of the block is

      logistic (sum over k of xblock (r, k) * w (k, q)  +  bias (0, q)),

  because row r of the block is row r - 1024 j of chunk j. The pieces tile the block, so the buffer ends
  holding that function.
-/
import proofs.«425459_j56633438765711_3_alg».proof.Proof.Gen.KernelIdeal.Frame
import proofs.«425459_j56633438765711_3_alg».proof.Proof.KernelChunk

set_option maxRecDepth 16384

noncomputable section

open scoped BigOperators

namespace Cert.KernelIdeal.Block

open Cert.KernelIdeal Cert.KernelIdeal.Gen Cert.KernelIdeal.Chunk Idealize.ShloMosaic Idealize.ShloMosaic.TcCoe
open Idealize.SL.Sem Idealize.ShloMosaic.ValueIdx

/-- The block's contents after the body, as one function of the point's three input blocks. -/
def blockHead (x0 : Vec Ideal S4096x1024 .f32) (x1 : Vec Ideal S1024x128 .bf16) (x2 : Vec Ideal S1x128 .f32) :
    Vec Ideal S4096x128 .f32 :=
  fun y => Ideal.logistic ((∑ k : Fin 1024, x0 (ix2 (y 0) k) * x1 (ix2 k (y 1))) + x2 (ix2 (0 : Fin 1) (y 1)))

/-- `blockHead` at an index whose coordinates are known. -/
theorem blockHead_apply (x0 : Vec Ideal S4096x1024 .f32) (x1 : Vec Ideal S1024x128 .bf16) (x2 : Vec Ideal S1x128 .f32)
    (y : S4096x128.Idx) (r : Fin 4096) (q : Fin 128) (hr : (y 0).val = r.val) (hq : (y 1).val = q.val) :
    blockHead x0 x1 x2 y
      = Ideal.logistic ((∑ k : Fin 1024, x0 (ix2 r k) * x1 (ix2 k q)) + x2 (ix2 (0 : Fin 1) q)) := by
  obtain rfl : y 0 = r := Fin.ext hr
  obtain rfl : y 1 = q := Fin.ext hq
  rfl

/-- Rows `o` to `o + 1023` of the block of x, loaded as a chunk: row `a` of the chunk is row `o + a` of the block. -/
theorem chunk_row (o : Nat) (inb : ∀ a, (![o, 0] : Fin 2 → Nat) a + (![1024, 1024] : Fin 2 → Nat) a ≤ S4096x1024.size a)
    (x0 : Vec Ideal S4096x1024 .f32) (a k : Fin 1024) (r : Fin 4096) (hr : r.val = o + a.val) :
    View.ld x0 (Rect.unit (s := S4096x1024) ![o, 0] ![1024, 1024] inb) (ix2 a k) = x0 (ix2 r k) :=
  congrArg x0 (funext fun ax => Fin.ext (by
    match ax with
    | ⟨0, _⟩ => show o + 1 * a.val = r.val; omega
    | ⟨1, _⟩ => show 0 + 1 * k.val = k.val; omega))

theorem zero2 : (![0, 0] : Fin 2 → Nat) = fun _ => 0 := funext fun a => by fin_cases a <;> rfl

/-- One stored piece agrees with `blockHead`: the chunk term of rows `o` … of the block, at the chunk's entry
    (a, b), is `blockHead` at the block's entry (o + a, b). -/
theorem piece_agrees (o : Nat) (inb1 : ∀ a, (![o, 0] : Fin 2 → Nat) a + (![1024, 1024] : Fin 2 → Nat) a ≤ S4096x1024.size a)
    (inb3 : ∀ a, (![o, 0] : Fin 2 → Nat) a + (![1024, 128] : Fin 2 → Nat) a ≤ S4096x128.size a)
    (x0 : Vec Ideal S4096x1024 .f32) (x1 : Vec Ideal S1024x128 .bf16) (x2 : Vec Ideal S1x128 .f32)
    (x : (Rect.unit (s := S4096x128) ![o, 0] ![1024, 128] inb3).shape.Idx) :
    chunkTerm (F := Ideal) x1 x2 (View.ld x0 (Rect.unit (s := S4096x1024) ![o, 0] ![1024, 1024] inb1)) x
      = blockHead x0 x1 x2 ((Rect.unit (s := S4096x128) ![o, 0] ![1024, 128] inb3).emb x) := by
  obtain ⟨a, b, rfl⟩ : ∃ (a : Fin 1024) (b : Fin 128), x = ix2 a b := ⟨x 0, x 1, eq_ix2 x⟩
  have ha : o + a.val < 4096 := by have := inb3 0; have h : (![o, 0] : Fin 2 → Nat) 0 + (![1024, 128] : Fin 2 → Nat) 0 ≤ 4096 := this; have : o + 1024 ≤ 4096 := h; have := a.isLt; omega
  rw [chunkTerm_apply, blockHead_apply x0 x1 x2 _ ⟨o + a.val, ha⟩ b (by show o + 1 * a.val = o + a.val; omega) (by show 0 + 1 * b.val = b.val; omega)]
  simp only [chunk_row o inb1 x0 a _ ⟨o + a.val, ha⟩ rfl]

/-- The output's staging buffer after the body holds `blockHead` of the point's input blocks. -/
theorem out_eq (c : Dev nD) (i : grid0.Coords) (arg1 : Memref sig .tc .vmem S4096x1024 .f32) (harg1 : arg1.IsWhole) (arg2 : Memref sig .tc .vmem S1024x128 .bf16) (harg2 : arg2.IsWhole) (arg3 : Memref sig .tc .vmem S1x128 .f32) (harg3 : arg3.IsWhole) (arg4 : Memref sig .tc .vmem S4096x128 .f32) (harg4 : arg4.IsWhole)
    (x0 : Vec Ideal S4096x1024 .f32) (x1 : Vec Ideal S1024x128 .bf16) (x2 : Vec Ideal S1x128 .f32) :
    out0_A_3 (F := Ideal) c i arg1 harg1 arg2 harg2 arg3 harg3 arg4 harg4 x0 x1 x2 = blockHead x0 x1 x2 := by
  unfold out0_A_3
  rw [View.read_writes_eq_canon _ _ _ (cover0_A_3 c i arg1 harg1 arg2 harg2 arg3 harg3 arg4 harg4 x0 x1 x2)]
  funext y
  refine View.canon_apply_of_pieces (blockHead x0 x1 x2) _ ?_ y (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread, View.ld_unit_zero (S := S1024x128) zero2,
    View.ld_unit_zero (S := S1x128) zero2, weights_eq, bias_eq, stored0, stored1, stored2, stored3]
  intro p hp x
  simp only [List.mem_cons, List.not_mem_nil, or_false] at hp
  rcases hp with rfl | rfl | rfl | rfl
  · exact piece_agrees 3072 (by decide) (by decide) x0 x1 x2 x
  · exact piece_agrees 2048 (by decide) (by decide) x0 x1 x2 x
  · exact piece_agrees 1024 (by decide) (by decide) x0 x1 x2 x
  · exact piece_agrees 0 (by decide) (by decide) x0 x1 x2 x

end Cert.KernelIdeal.Block

end
-- ==== Proof.KernelValue.lean ====
/-
  The kernel's result array is the multilabel head of its arguments.

  The grid has eight points; point t stages rows 4096 t to 4096 t + 4095 of x, the whole weight matrix
  (the argument W, whose change of format before the call is the identity over the extended reals) and the
  bias as one row (the argument b, reshaped), and writes back rows 4096 t … of the result. What the point
  writes back is `blockHead` of its three input blocks; read through the blocks that is `head` of the
  arguments at rows 4096 t + r: block t of ONE function of the arguments. The eight output blocks tile the
  32768 rows (row i lies in block i / 4096), so the result array ends holding `head`.
-/
import proofs.«425459_j56633438765711_3_alg».proof.Proof.Gen.KernelIdeal.Value
import proofs.«425459_j56633438765711_3_alg».proof.Proof.KernelBlock
import proofs.«425459_j56633438765711_3_alg».proof.Proof.Spec
import Idealize.ShloMosaic.Lib.StableHlo.Run
import Idealize.ShloMosaic.Lib.ValueLayout

set_option maxRecDepth 16384

noncomputable section

open scoped BigOperators

namespace Cert.KernelIdeal.HeadValue

open Cert.KernelIdeal Cert.KernelIdeal.Gen Cert.KernelIdeal.Block Cert.Head Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The weights the region stages are the argument W: the host's change of format is the identity here. -/
theorem weights_arr (c : Dev nD) :
    (V m c main_v0 : S1024x128.Idx → EReal) = (m ((c : Thread nD τ).loc main_arg1) : S1024x128.Idx → EReal) := by
  dsimp only [Gen.V, Gen.hostOps0]; after_results; rfl

/-- The bias row the region stages is the argument b, reshaped to one row. -/
theorem bias_arr (c : Dev nD) :
    (V m c main_v1 : S1x128.Idx → EReal) = shapeCast S1x128 (m ((c : Thread nD τ).loc main_arg2) : S128.Idx → EReal) shapeCasts_S128_S1x128 := by
  dsimp only [Gen.V, Gen.hostOps0]; after_results; rfl

/-! ## The blocks' places in their arrays -/

/-- The block indices over the grid: x's and the result's blocks move with the point along the rows; the
    weights' and the bias's block is always the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of point t's block of x is row 4096 t + r of x. -/
theorem xblock_apply (c : Dev nD) (t : Fin cfg0.N) (r : Fin 4096) (k : Fin 1024) (R : Fin 32768) (hR : R.val = t.val * 4096 + r.val) :
    (iblk m c 0 t : Vec Ideal S4096x1024 .f32) (ix2 r k) = (m ((c : Thread nD τ).loc main_arg0) : S32768x1024.Idx → EReal) (ix2 R k) := by
  obtain ⟨e0, e1, -⟩ := idx_facts t
  show V m c main_arg0 (((cfg0.win 0).blk t).view.emb (ix2 r k)) = _
  refine (congrFun (V_main_arg0 m c) _).trans (congrArg _ (funext fun a => Fin.ext ?_))
  match a with
  | ⟨0, _⟩ => show win0_0.index t (0 : Fin 2) * 4096 + 1 * r.val = R.val; omega
  | ⟨1, _⟩ => show win0_0.index t (1 : Fin 2) * 1024 + 1 * k.val = k.val; omega

/-- The staged weights are W, entry by entry. -/
theorem wblock_apply (c : Dev nD) (t : Fin cfg0.N) (k : Fin 1024) (q : Fin 128) :
    (iblk m c 1 t : Vec Ideal S1024x128 .bf16) (ix2 k q) = (m ((c : Thread nD τ).loc main_arg1) : S1024x128.Idx → EReal) (ix2 k q) := by
  obtain ⟨-, -, e2, e3, -⟩ := idx_facts t
  show V m c main_v0 (((cfg0.win 1).blk t).view.emb (ix2 k q)) = _
  refine (congrFun (weights_arr m c) _).trans (congrArg _ (funext fun a => Fin.ext ?_))
  match a with
  | ⟨0, _⟩ => show win0_1.index t (0 : Fin 2) * 1024 + 1 * k.val = k.val; omega
  | ⟨1, _⟩ => show win0_1.index t (1 : Fin 2) * 128 + 1 * q.val = q.val; omega

/-- The staged bias row is b, entry by entry. -/
theorem bblock_apply (c : Dev nD) (t : Fin cfg0.N) (q : Fin 128) :
    (iblk m c 2 t : Vec Ideal S1x128 .f32) (ix2 (0 : Fin 1) q) = (m ((c : Thread nD τ).loc main_arg2) : S128.Idx → EReal) (ix1 q) := by
  obtain ⟨-, -, -, -, e4, e5, -⟩ := idx_facts t
  show V m c main_v1 (((cfg0.win 2).blk t).view.emb (ix2 (0 : Fin 1) q)) = _
  have e : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 128 + 1 * q.val = q.val; omega)
  rw [e]
  exact (congrFun (bias_arr m c) _).trans (shapeCast_a_1a_apply _ _ _ _)

/-! ## What a point writes back is its block of `head` -/

/-- `blockHead` of blocks that read the arguments — row r of the x block being row R of x — is `head` of the
    arguments at row R, column by column. -/
theorem blockHead_eq_head_at (X : FVec Ideal S32768x1024 .f32) (W : FVec Ideal S1024x128 .f32) (B : FVec Ideal S128 .f32)
    (x0 : Vec Ideal S4096x1024 .f32) (x1 : Vec Ideal S1024x128 .bf16) (x2 : Vec Ideal S1x128 .f32)
    (r : Fin 4096) (q : Fin 128) (R : Fin 32768)
    (h0 : ∀ k : Fin 1024, x0 (ix2 r k) = X (ix2 R k))
    (h1 : ∀ (k : Fin 1024) (q : Fin 128), x1 (ix2 k q) = W (ix2 k q))
    (h2 : ∀ q : Fin 128, x2 (ix2 (0 : Fin 1) q) = B (ix1 q)) :
    blockHead x0 x1 x2 (ix2 r q) = head X W B (ix2 R q) := by
  show Ideal.logistic ((∑ k : Fin 1024, x0 (ix2 r k) * x1 (ix2 k q)) + x2 (ix2 (0 : Fin 1) q))
    = Ideal.logistic ((∑ k : Fin 1024, X (ix2 R k) * W (ix2 k q)) + B (ix1 q))
  simp only [h0, h1, h2]

/-- The same at a block index `y` and an array index `i` of the same column. -/
theorem blockHead_eq_head (X : FVec Ideal S32768x1024 .f32) (W : FVec Ideal S1024x128 .f32) (B : FVec Ideal S128 .f32)
    (x0 : Vec Ideal S4096x1024 .f32) (x1 : Vec Ideal S1024x128 .bf16) (x2 : Vec Ideal S1x128 .f32)
    (y : S4096x128.Idx) (i : S32768x128.Idx) (hi1 : (i 1).val = (y 1).val)
    (h0 : ∀ k : Fin 1024, x0 (ix2 (y 0) k) = X (ix2 (i 0) k))
    (h1 : ∀ (k : Fin 1024) (q : Fin 128), x1 (ix2 k q) = W (ix2 k q))
    (h2 : ∀ q : Fin 128, x2 (ix2 (0 : Fin 1) q) = B (ix1 q)) :
    blockHead x0 x1 x2 y = head X W B i :=
  calc blockHead x0 x1 x2 y = blockHead x0 x1 x2 (ix2 (y 0) (y 1)) := congrArg _ (eq_ix2 y)
    _ = head X W B (ix2 (i 0) (y 1)) := blockHead_eq_head_at X W B x0 x1 x2 (y 0) (y 1) (i 0) h0 h1 h2
    _ = head X W B i := congrArg _ (funext fun a => Fin.ext (by
        match a with
        | ⟨0, _⟩ => rfl
        | ⟨1, _⟩ => exact hi1.symm))

/-- What point `t` writes back is block `t` of `head` of the arguments. -/
theorem flushed_eq (c : Dev nD) (t : Fin cfg0.N) :
    (dats m 0 c).flushed 3 t
      = ((cfg0.win 3).blk t).view.read (Elt Ideal) (head (m ((c : Thread nD τ).loc main_arg0)) (m ((c : Thread nD τ).loc main_arg1)) (m ((c : Thread nD τ).loc main_arg2))) := by
  rw [Value.flushed3_A, out_eq]
  obtain ⟨-, -, -, -, -, -, e6, e7⟩ := idx_facts t
  funext j
  have hj0 : (j 0).val < 4096 := (j 0).isLt
  have ht : t.val < 8 := by have := t.isLt; have hN : cfg0.N = 8 := N_0; omega
  refine blockHead_eq_head (m ((c : Thread nD τ).loc main_arg0)) (m ((c : Thread nD τ).loc main_arg1)) (m ((c : Thread nD τ).loc main_arg2)) (iblk m c 0 t) (iblk m c 1 t) (iblk m c 2 t) j
    (((cfg0.win 3).blk t).view.emb j) ?_ (fun k => ?_) (fun k q => wblock_apply m c t k q) (fun q => bblock_apply m c t q)
  · show win0_3.index t (1 : Fin 2) * 128 + 1 * (j 1).val = (j 1).val; omega
  · exact xblock_apply m c t (j 0) k _ (by show win0_3.index t (0 : Fin 2) * 4096 + 1 * (j 0).val = t.val * 4096 + (j 0).val; omega)

/-! ## The blocks cover the array -/

/-- An index of the result is in point `t`'s block iff each coordinate is in the block's range. -/
theorem mem_blk (t : Fin cfg0.N) (i : S32768x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v2).slice (win0_3.rect t)).set ↔ _
  rw [View.set_slice_whole, Rect.mem_set_unit]
  exact Iff.rfl

/-- Row `i` of the result lies in the block of point `i / 4096`. -/
theorem cover (i : S32768x128.Idx) : ∃ t : Fin cfg0.N, (cfg0.win 3).flush t = true ∧ i ∈ ((cfg0.win 3).blk t).view.set := by
  have hi0 : (i 0).val < 32768 := (i 0).isLt
  have hi1 : (i 1).val < 128 := (i 1).isLt
  have hN : cfg0.N = 8 := N_0
  obtain ⟨t, ht⟩ : ∃ t : Fin cfg0.N, t.val = (i 0).val / 4096 := ⟨⟨(i 0).val / 4096, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-! ## The array after the run, and the run -/

/-- After the run the result array holds `head` of the arguments. -/
theorem final (c : Dev nD) :
    (dats m 0 c).arrAt 3 cfg0.N = head (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the idealized kernel terminates with the result at `head` of the arguments
    and the arguments unchanged. -/
theorem run : θ_run defs (onTc (τ := τ) (main (F := Ideal))) ⟨m, fun _ => 0, ρ⟩ fun r => ∀ c : Dev nD,
      r.2.mem ((c : Thread nD τ).loc main_v2) = head (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.HeadValue

end
-- ==== Proof.lean ====
/-
  The multilabel head y = sigmoid (x W + b), x of 32768 rows and 1024 features, W of 1024 by 128, b of 128:
  a kernel that sweeps the batch in eight blocks of 4096 rows, each worked in four chunks of 1024 rows
  (chunk times W into a zero accumulator, plus the bias row, through the logistic function), against the
  host program logistic (x W + b) with the logistic function spelled 1 / (1 + exp (-z)).

  Over the extended reals both results are ONE function of the arguments (`Cert.Head.head`, Proof/Spec.lean):
  entry (r, c) is the logistic function of the sum over k of x (r, k) * W (k, c), plus b c.
  * The reference's composed term is `head` (Proof/RefValue.lean): the product read as the sum over the
    contraction index, the broadcasts of the bias read at the column, and the last four stages the logistic
    function by its definition.
  * The kernel's result array is `head` (Proof/KernelChunk.lean, KernelBlock.lean, KernelValue.lean): a chunk's
    stored value at an entry is the same sum (the changes of format are the identity, the product into zero
    is the plain sum); the four chunks are the restrictions of one function of the block index and tile the
    block; the block read through the windows is block t of `head`; and the eight blocks tile the array.
  No law of arithmetic joins the two sides — the sums are over the same index in the same terms — so the
  finiteness of the inputs is never used.
  The three frames are the generated runs; the idealization rewrote nothing, so `preserves` is trivial.
-/
import proofs.«425459_j56633438765711_3_alg».proof.Defs
import proofs.«425459_j56633438765711_3_alg».proof.Proof.Gen.Kernel
import proofs.«425459_j56633438765711_3_alg».proof.Proof.Gen.Kernel.Skeleton
import proofs.«425459_j56633438765711_3_alg».proof.Proof.Gen.Kernel.Launch
import proofs.«425459_j56633438765711_3_alg».proof.Proof.Gen.Kernel.Points
import proofs.«425459_j56633438765711_3_alg».proof.Proof.Gen.Kernel.Frame
import proofs.«425459_j56633438765711_3_alg».proof.Proof.Gen.KernelIdeal
import proofs.«425459_j56633438765711_3_alg».proof.Proof.Gen.KernelIdeal.Skeleton
import proofs.«425459_j56633438765711_3_alg».proof.Proof.Gen.KernelIdeal.Launch
import proofs.«425459_j56633438765711_3_alg».proof.Proof.Gen.KernelIdeal.Points
import proofs.«425459_j56633438765711_3_alg».proof.Proof.Gen.KernelIdeal.Frame
import proofs.«425459_j56633438765711_3_alg».proof.Proof.Gen.ReferenceIdeal
import proofs.«425459_j56633438765711_3_alg».proof.Proof.Gen.Pre_finite_inputs
import proofs.«425459_j56633438765711_3_alg».proof.Proof.Gen.KernelIdeal.Value
import proofs.«425459_j56633438765711_3_alg».proof.Proof.Gen.ReferenceIdeal.Run
import proofs.«425459_j56633438765711_3_alg».proof.Proof.Gen.ReferenceIdeal.Read
import proofs.«425459_j56633438765711_3_alg».proof.Proof.Spec
import proofs.«425459_j56633438765711_3_alg».proof.Proof.RefValue
import proofs.«425459_j56633438765711_3_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, W and b both programs end with the result at `head` of the arguments. -/
theorem algebraic : Cert.algebraic_KernelIdeal_ReferenceIdeal := by
  intro m ρ m' ρ' _ hagree
  refine ⟨_, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
